-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x2048 : Shape := ⟨3, ![16384, 1, 2048]⟩
abbrev S_ : Shape := ⟨0, ![]⟩

class Facts : Prop where
  bcast_S_S16384x1x2048 : S_.BroadcastsInDim S16384x1x2048 (![] : Fin 0 → Fin S16384x1x2048.rank)
  reducesTo_S16384x1x2048_S_d0_1_2 : S16384x1x2048.ReducesTo [0, 1, 2] S_
  h_S_ : 0 < S_.numel

variable [Facts]

def fn_part1 {F : FTy → Type} [FloatOps F] (main_v13 : IVec S_ 1) (main_v16 : IVec S16384x1x2048 1) : IVec S_ 1 :=
  let main_c_5 : IVec S_ 1 := constantI S_ 1 1#1
  let main_v17 : IVec S_ 1 := (fun x v => Host.reduce IntOp.andi x v reducesTo_S16384x1x2048_S_d0_1_2 h_S_) main_v16 main_c_5
  let main_v18 : IVec S_ 1 := andi main_v13 main_v17
  main_v18

def fn {F : FTy → Type} [FloatOps F] (main_arg0 : FVec F S16384x1x2048 .f32) (main_arg1 : FVec F S16384x1x2048 .f32) (main_arg2 : FVec F S16384x1x2048 .f32) (main_arg3 : FVec F S16384x1x2048 .f32) : IVec S_ 1 :=
  let main_v0 : FVec F S16384x1x2048 .f32 := Host.absf main_arg0
  let main_cst : FVec F S_ .f32 := constant S_ .f32 0x7F800000#32
  let main_v1 : FVec F S16384x1x2048 .f32 := broadcastInDim S16384x1x2048 ![] bcast_S_S16384x1x2048 main_cst
  let main_v2 : IVec S16384x1x2048 1 := cmpf .olt main_v0 main_v1
  let main_c : IVec S_ 1 := constantI S_ 1 1#1
  let main_v3 : IVec S_ 1 := (fun x v => Host.reduce IntOp.andi x v reducesTo_S16384x1x2048_S_d0_1_2 h_S_) main_v2 main_c
  let main_v4 : FVec F S16384x1x2048 .f32 := Host.absf main_arg1
  let main_cst_0 : FVec F S_ .f32 := constant S_ .f32 0x7F800000#32
  let main_v5 : FVec F S16384x1x2048 .f32 := broadcastInDim S16384x1x2048 ![] bcast_S_S16384x1x2048 main_cst_0
  let main_v6 : IVec S16384x1x2048 1 := cmpf .olt main_v4 main_v5
  let main_c_1 : IVec S_ 1 := constantI S_ 1 1#1
  let main_v7 : IVec S_ 1 := (fun x v => Host.reduce IntOp.andi x v reducesTo_S16384x1x2048_S_d0_1_2 h_S_) main_v6 main_c_1
  let main_v8 : IVec S_ 1 := andi main_v3 main_v7
  let main_v9 : FVec F S16384x1x2048 .f32 := Host.absf main_arg2
  let main_cst_2 : FVec F S_ .f32 := constant S_ .f32 0x7F800000#32
  let main_v10 : FVec F S16384x1x2048 .f32 := broadcastInDim S16384x1x2048 ![] bcast_S_S16384x1x2048 main_cst_2
  let main_v11 : IVec S16384x1x2048 1 := cmpf .olt main_v9 main_v10
  let main_c_3 : IVec S_ 1 := constantI S_ 1 1#1
  let main_v12 : IVec S_ 1 := (fun x v => Host.reduce IntOp.andi x v reducesTo_S16384x1x2048_S_d0_1_2 h_S_) main_v11 main_c_3
  let main_v13 : IVec S_ 1 := andi main_v8 main_v12
  let main_v14 : FVec F S16384x1x2048 .f32 := Host.absf main_arg3
  let main_cst_4 : FVec F S_ .f32 := constant S_ .f32 0x7F800000#32
  let main_v15 : FVec F S16384x1x2048 .f32 := broadcastInDim S16384x1x2048 ![] bcast_S_S16384x1x2048 main_cst_4
  let main_v16 : IVec S16384x1x2048 1 := cmpf .olt main_v14 main_v15
  fn_part1 (F := F) main_v13 main_v16
-- ==== Kernel.lean ====
abbrev S16384x1x2048 : Shape := ⟨3, ![16384, 1, 2048]⟩
abbrev S16384x2048 : Shape := ⟨2, ![16384, 2048]⟩
abbrev S1x2048 : Shape := ⟨2, ![1, 2048]⟩
abbrev S1024x512 : Shape := ⟨2, ![1024, 512]⟩
abbrev S1x512 : Shape := ⟨2, ![1, 512]⟩
abbrev S512 : Shape := ⟨1, ![512]⟩
abbrev S2048 : Shape := ⟨1, ![2048]⟩

abbrev nBuf : Space → Nat
  | .hbm => 10
  | .vmem => 11
  | .smem => 0
  | _ => 0

abbrev bufTy : (tb : Table) → Fin (tcTables nBuf tb) → BufTy
  | .hbm, ⟨0, _⟩ => ⟨S16384x1x2048, .f32⟩
  | .hbm, ⟨1, _⟩ => ⟨S16384x1x2048, .f32⟩
  | .hbm, ⟨2, _⟩ => ⟨S16384x1x2048, .f32⟩
  | .hbm, ⟨3, _⟩ => ⟨S16384x1x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S1x2048, .f32⟩
  | .hbm, ⟨9, _⟩ => ⟨S2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S16384x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_14 : BitVec 32 := 0#32
  let v32 : BitVec 1 := Scalar.cmpi .ne v31 c0_i32_14
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384x1x2048_S16384x2048 : S16384x1x2048.ShapeCasts S16384x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  shapeCasts_S1x2048_S2048 : S1x2048.ShapeCasts S2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x2048.size a
  hwx0_0 : ∀ i : grid0.Coords, EltTy.bits .f32 = 32 ∨ (Rect.block (s := S16384x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x2048.size a
  hwx0_1 : ∀ i : grid0.Coords, EltTy.bits .f32 = 32 ∨ (Rect.block (s := S16384x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x2048.size a
  hwx0_2 : ∀ i : grid0.Coords, EltTy.bits .f32 = 32 ∨ (Rect.block (s := S16384x2048) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x2048.size a
  hwx0_3 : ∀ i : grid0.Coords, EltTy.bits .f32 = 32 ∨ (Rect.block (s := S16384x2048) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1x2048 : Shape := ⟨3, ![16384, 1, 2048]⟩
abbrev S16384x2048 : Shape := ⟨2, ![16384, 2048]⟩
abbrev S_ : Shape := ⟨0, ![]⟩
abbrev S2048 : Shape := ⟨1, ![2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x1x2048, .f32⟩
  | .hbm, ⟨1, _⟩ => ⟨S16384x1x2048, .f32⟩
  | .hbm, ⟨2, _⟩ => ⟨S16384x1x2048, .f32⟩
  | .hbm, ⟨3, _⟩ => ⟨S16384x1x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S2048, .f32⟩
  | _, _ => ⟨S16384x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S16384x1x2048_S16384x2048 : S16384x1x2048.ShapeCasts S16384x2048
  bcast_S_S16384x2048 : S_.BroadcastsInDim S16384x2048 (![] : Fin 0 → Fin S16384x2048.rank)
  reducesTo_S16384x2048_S2048_d0 : S16384x2048.ReducesTo [0] S2048
  h_S_ : 0 < S_.numel

variable [Facts₀]

class Facts : Prop extends Facts₀ where

variable [Facts]
-- ==== Proof.Pieces.lean ====
/-
  What one step of the kernel leaves behind, case by case, as values.

  The kernel keeps a running row `acc : [1, 512]` in a scratch buffer. At every grid point it adds to `acc` the
  column sums of the divergence over the point's four `[1024, 512]` input blocks (`k0_pay2`: the body's arithmetic
  as one pure term of the four blocks and of the row it adds to). The three cases of its two conditionals differ only
  in what that row is and in whether the result is also copied out:
    * first step of a column block: the row is reset to zeros first (`k0_pay1`), so the step leaves `k0_pay2 … 0`;
    * a middle step: it leaves `k0_pay2 … acc` of the row `acc` the step before left;
    * the last step: the same, and the output's staging buffer receives a copy of the new row.
-/
import proofs.«148023_j3616362463298_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A middle step leaves in the scratch the step's update of the row `xs0` found there. -/
theorem scratch_mid (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 x1 x2 x3 : Vec F S1024x512 .f32) (xs0 : Vec F S1x512 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, View.ld_unit_zero (S := S1024x512) hz, View.ld_unit_zero (S := S1x512) hz]

/-- The last step of a column block leaves in the scratch the same update … -/
theorem scratch_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 x1 x2 x3 : Vec F S1024x512 .f32) (xs0 : Vec F S1x512 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S1024x512) hz, View.ld_unit_zero (S := S1x512) hz]

/-- … and in the output's staging buffer a copy of it: the scratch read back after the update. -/
theorem out_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 x1 x2 x3 : Vec F S1024x512 .f32) (xs0 : Vec F S1x512 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, View.ld_unit_zero (S := S1024x512) hz, View.ld_unit_zero (S := S1x512) hz, View.readCov_unit_zero (S := S1x512) _ hz]

/-- The first step of a column block resets the row to zeros and then updates it. -/
theorem scratch_first (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 x1 x2 x3 : Vec F S1024x512 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x512) hz, View.readCov_unit_zero (S := S1x512) _ hz]
  simp only [View.readAt_eq_ld, harg2.read_unread, harg3.read_unread, harg4.read_unread, harg5.read_unread, harg6.read_unread, harg7.read_unread, View.ld_unit_zero (S := S1024x512) hz, View.ld_unit_zero (S := S1x512) hz]

end Cert.KernelIdeal.Pieces

end
-- ==== Proof.LibSumBlocks.lean ====
/-
  A sum over a range of a * b consecutive numbers, cut into a consecutive blocks of b numbers each: in any commutative
  monoid the whole sum is the sum over the blocks of each block's sum, whatever function names the member k of block j,
  as long as that member is the number b * j + k. For four blocks the outer sum is written out as a chain of additions
  from the left, which is the order in which an accumulator that is updated once per block builds it.
-/
import Mathlib.Algebra.BigOperators.Fin
import Mathlib.Algebra.BigOperators.Group.Finset.Sigma
import Mathlib.Logic.Equiv.Fin.Basic

namespace Cert.LibSumBlocks

variable {M : Type*} [AddCommMonoid M]

/-- THE CUT: the sum over all n = a * b numbers is the double sum over block j and place k of the value at b * j + k. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

/-- Four blocks, accumulated from the left starting at zero. -/
theorem sum_four_blocks {b n : ℕ} (hn : 4 * b = n) (f : Fin n → M) (g : Fin 4 → Fin b → Fin n)
    (hg : ∀ j k, (g j k).val = b * j.val + k.val) :
    ((((0 : M) + ∑ k, f (g 0 k)) + ∑ k, f (g 1 k)) + ∑ k, f (g 2 k)) + ∑ k, f (g 3 k) = ∑ k, f k := by
  rw [sum_blocks hn f g hg, Fin.sum_univ_four, zero_add]

end Cert.LibSumBlocks
-- ==== Proof.Spec.lean ====
/-
  What both programs compute, as one function of the four argument arrays `mean1, std1, mean2, std2 : [16384, 1, 2048]`.

  Entry by entry, with `ρ = std1 / std2` and `δ = (mean1 - mean2) / std2`, the divergence of two normal laws is
  `kl = 1/2 · (((ρ·ρ + δ·δ) - 1) - log (ρ·ρ))`; the result at column `j` is `0 + ∑ i, kl (i, j)`, the sum over all
  16384 rows. Addition of extended reals is commutative and associative, so the sum may be taken in any grouping:
  cut into 16 consecutive blocks of 1024 rows it is the sum over the blocks of each block's sum (`total_eq_blocks`),
  which is the order in which an accumulator that is reset before block 0 and updated once per block builds it.
  The two float literals (`1/2`, `1`) and the zero the sums start from are kept as the words both programs spell.
-/
import Idealize.ShloMosaic.PureOps.Ideal
import Idealize.ShloMosaic.Lib.ValueIdx
import proofs.«148023_j3616362463298_1_alg».proof.Proof.LibSumBlocks

noncomputable section

namespace Cert.KlSum

open Idealize.ShloMosaic Idealize.ShloMosaic.ValueIdx

/-- The divergence at one entry, from `mean1, std1, mean2, std2` there. -/
def kl (m1 s1 m2 s2 : EReal) : EReal :=
  Ideal.ofBits .f32 0x3F000000#32
    * ((((Ideal.div s1 s2 * Ideal.div s1 s2) + (Ideal.div (m1 - m2) s2 * Ideal.div (m1 - m2) s2))
        - Ideal.ofBits .f32 0x3F800000#32)
      - Ideal.log (Ideal.div s1 s2 * Ideal.div s1 s2))

/-- An argument array. -/
abbrev Arr : Type := (⟨3, ![16384, 1, 2048]⟩ : Shape).Idx → EReal

/-- The divergence at row `i`, column `j` of the argument arrays. -/
def term (a0 a1 a2 a3 : Arr) (i : Fin 16384) (j : Fin 2048) : EReal :=
  kl (a0 (ix3 i 0 j)) (a1 (ix3 i 0 j)) (a2 (ix3 i 0 j)) (a3 (ix3 i 0 j))

/-- The zero word both sums start from. -/
abbrev zeroWord : EReal := Ideal.ofBits .f32 0x00000000#32

/-- THE RESULT: at column `j`, zero plus the sum of the divergences down the column. -/
def total (a0 a1 a2 a3 : Arr) : (⟨1, ![2048]⟩ : Shape).Idx → EReal :=
  fun j => zeroWord + ∑ i : Fin 16384, term a0 a1 a2 a3 i (j 0)

/-- Row `r` of row block `s`. -/
abbrev rowOf (s : Fin 16) (r : Fin 1024) : Fin 16384 := ⟨1024 * s.val + r.val, by omega⟩

/-- The sum of the 1024 rows of row block `s` at column `c`; zero for a block or a column that is not there. -/
def blockSum (a0 a1 a2 a3 : Arr) (s c : ℕ) : EReal :=
  if h : s < 16 ∧ c < 2048 then ∑ r : Fin 1024, term a0 a1 a2 a3 (rowOf ⟨s, h.1⟩ r) ⟨c, h.2⟩ else 0

/-- The column's sum, block by block: zero plus the sixteen block sums is the result. -/
theorem total_eq_blocks (a0 a1 a2 a3 : Arr) (j : Fin 2048) :
    zeroWord + ∑ s ∈ Finset.range 16, blockSum a0 a1 a2 a3 s j.val = total a0 a1 a2 a3 (ix1 j) := by
  unfold total
  refine congrArg (zeroWord + ·) ?_
  show ∑ s ∈ Finset.range 16, blockSum a0 a1 a2 a3 s j.val = ∑ i : Fin 16384, term a0 a1 a2 a3 i j
  rw [Finset.sum_range,
    Cert.LibSumBlocks.sum_blocks (a := 16) (b := 1024) rfl (fun i => term a0 a1 a2 a3 i j) rowOf (fun _ _ => rfl)]
  refine Finset.sum_congr rfl fun s _ => ?_
  unfold blockSum
  rw [dif_pos ⟨s.isLt, j.isLt⟩]

end Cert.KlSum

end
-- ==== Proof.LibColSum.lean ====
/-
  A sum over the leading axis read at an index given by coordinates: for an `[a, b]` array summed over its first
  axis, over the extended reals, the entry `q` of the result is the sum over `k` of the array at `(k, q)`.
-/
import Idealize.ShloMosaic.Lib.ValueIdx
import Idealize.ShloMosaic.PureOps.Ideal.Laws

noncomputable section

namespace Cert.LibColSum

open Idealize.ShloMosaic Idealize.ShloMosaic.ValueIdx

/-- A `vector.multi_reduction <add>` over axis 0 of an `[a, b]` array reads, at `q`, the sum of column `q`. -/
theorem multiReduction_add_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  exact Finset.sum_congr rfl fun k _ => congrArg src (funext fun ax => Fin.ext (by
    match ax with
    | ⟨0, _⟩ => rfl
    | ⟨1, _⟩ => rfl))

end Cert.LibColSum

end
-- ==== Proof.Payload.lean ====
/-
  The kernel step's arithmetic read at an index, over the extended reals.

  `k0_pay2 x0 x1 x2 x3 acc` is the row `acc` plus, column by column, the sum down the 1024 rows of the divergence of
  the four blocks' entries: the identity casts drop out, the pointwise operations are read entry by entry, the sum
  over the rows is the lane reduction over the leading axis, and the cast of the `[512]` row of sums to `[1, 512]` keeps
  its one coordinate. `k0_pay1`, the row the first step resets to, is the zero word everywhere.
-/
import proofs.«148023_j3616362463298_1_alg».proof.Proof.Gen.KernelIdeal.Skeleton
import proofs.«148023_j3616362463298_1_alg».proof.Proof.Spec
import proofs.«148023_j3616362463298_1_alg».proof.Proof.LibColSum
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Idealize.ShloMosaic Idealize.ShloMosaic.TcCoe Idealize.ShloMosaic.ValueIdx
open Cert.KernelIdeal Cert.KernelIdeal.Gen Cert.KlSum

/-- The divergence of the four blocks' entries at row `r`, column `q` of a block. -/
abbrev klAt (x0 x1 x2 x3 : Vec Ideal S1024x512 .f32) (r : Fin 1024) (q : Fin 512) : EReal :=
  kl (x0 (ix2 r q)) (x1 (ix2 r q)) (x2 (ix2 r q)) (x3 (ix2 r q))

/-- The row the reset stores is the zero word everywhere. -/
theorem pay1_apply (i : S1x512.Idx) : k0_pay1 (F := Ideal) i = zeroWord := by
  unfold k0_pay1
  rw [shapeCast_self]
  rfl

/-- One step: the row `acc` plus the blocks' column sums of the divergence. -/
theorem pay2_apply (x0 x1 x2 x3 : Vec Ideal S1024x512 .f32) (acc : Vec Ideal S1x512 .f32) (u : Fin 1) (q : Fin 512) :
    k0_pay2 (F := Ideal) x0 x1 x2 x3 acc (ix2 u q) = acc (ix2 u q) + ∑ r : Fin 1024, klAt x0 x1 x2 x3 r q := by
  unfold k0_pay2
  simp only [shapeCast_self]
  rw [addf_apply, shapeCast_a_1a_apply]
  refine congrArg (acc (ix2 u q) + ·) ?_
  refine (Cert.LibColSum.multiReduction_add_cols _ _ _ _ _ q).trans ?_
  exact Finset.sum_congr rfl fun r _ => rfl

end Cert.KernelIdeal.Payload

end
-- ==== Proof.Blocks.lean ====
/-
  The kernel's input blocks, read back to the argument arrays.

  The program first squeezes the unit axis out of each argument, `[16384, 1, 2048] → [16384, 2048]`: entry `(i, j)` of the
  squeezed array is entry `(i, 0, j)` of the argument. The grid is `4 × 16`, the column block `d` outer and the row block
  `b` inner, so point `t` is `(d, b) = (t / 16, t % 16)`; each input window's block there is rows `1024 b … 1024 b + 1023`,
  columns `512 d … 512 d + 511` of its squeezed array. Hence the column sums one step adds are, at column `q` of the block,
  the sum over row block `b` at column `512 d + q` of the divergence of the arguments' entries (`step_sum`).
-/
import proofs.«148023_j3616362463298_1_alg».proof.Proof.Gen.KernelIdeal.Frame
import proofs.«148023_j3616362463298_1_alg».proof.Proof.Payload
import Idealize.ShloMosaic.Lib.Pipeline.Value
import Idealize.ShloMosaic.Lib.StableHlo.Run
import Idealize.ShloMosaic.Lib.Tactic

noncomputable section

namespace Cert.KernelIdeal.Blocks

open Idealize.ShloMosaic Idealize.ShloMosaic.TcCoe Idealize.ShloMosaic.ValueIdx Idealize.SL.Sem
open Cert.KernelIdeal Cert.KernelIdeal.Gen Cert.KlSum Cert.KernelIdeal.Payload

variable (m : (ℓ : Loc nD τ sig) → Buf (Elt Ideal) ℓ)

/-- The four argument arrays on core `c`. -/
abbrev a0 (c : Dev nD) : Arr := m ((c.tc : Thread nD τ).loc main_arg0)
abbrev a1 (c : Dev nD) : Arr := m ((c.tc : Thread nD τ).loc main_arg1)
abbrev a2 (c : Dev nD) : Arr := m ((c.tc : Thread nD τ).loc main_arg2)
abbrev a3 (c : Dev nD) : Arr := m ((c.tc : Thread nD τ).loc main_arg3)

/-- The four input blocks at point `t`. -/
abbrev b0 (c : Dev nD) (t : Fin cfg0.N) : Vec Ideal S1024x512 .f32 := iblk m c 0 t
abbrev b1 (c : Dev nD) (t : Fin cfg0.N) : Vec Ideal S1024x512 .f32 := iblk m c 1 t
abbrev b2 (c : Dev nD) (t : Fin cfg0.N) : Vec Ideal S1024x512 .f32 := iblk m c 2 t
abbrev b3 (c : Dev nD) (t : Fin cfg0.N) : Vec Ideal S1024x512 .f32 := iblk m c 3 t

/-- Squeezing the unit axis: entry `(i, j)` of the result is entry `(i, 0, j)` of the argument. -/
theorem squeeze_apply (x : Arr) (i : Fin 16384) (j : Fin 2048) :
    shapeCast S16384x2048 x shapeCasts_S16384x1x2048_S16384x2048 (ix2 i j) = x (ix3 i 0 j) :=
  shapeCast_apply x shapeCasts_S16384x1x2048_S16384x2048 (ix2 i j) (ix3 i 0 j) (by
    rw [Shape.rowMajor_val_three, Shape.rowMajor_val_two]
    show (i.val * 1 + 0) * 2048 + j.val = i.val * 2048 + j.val
    omega)

/-- Where the windows' blocks sit: every input's block index at point `t` is `(t % 16, t / 16)`, the output's `(0, t / 16)`. -/
theorem idx_facts : ∀ t : Fin cfg0.N,
    (win0_0.index t 0 = t.val % 16 ∧ win0_0.index t 1 = t.val / 16)
    ∧ (win0_1.index t 0 = t.val % 16 ∧ win0_1.index t 1 = t.val / 16)
    ∧ (win0_2.index t 0 = t.val % 16 ∧ win0_2.index t 1 = t.val / 16)
    ∧ (win0_3.index t 0 = t.val % 16 ∧ win0_3.index t 1 = t.val / 16)
    ∧ (win0_4.index t 0 = 0 ∧ win0_4.index t 1 = t.val / 16) :=
  (by decide +kernel : ∀ t : Fin grid0.N,
    (win0_0.index t 0 = t.val % 16 ∧ win0_0.index t 1 = t.val / 16)
    ∧ (win0_1.index t 0 = t.val % 16 ∧ win0_1.index t 1 = t.val / 16)
    ∧ (win0_2.index t 0 = t.val % 16 ∧ win0_2.index t 1 = t.val / 16)
    ∧ (win0_3.index t 0 = t.val % 16 ∧ win0_3.index t 1 = t.val / 16)
    ∧ (win0_4.index t 0 = 0 ∧ win0_4.index t 1 = t.val / 16))

/-- The squeezed array of argument 0 as the region finds it. -/
theorem V0_eq (c : Dev nD) :
    (V m c main_v0 : Vec Ideal S16384x2048 .f32) = shapeCast S16384x2048 (a0 m c) shapeCasts_S16384x1x2048_S16384x2048 := by
  show StableHlo.after hostOps0 (fun b => m (c, b)) (Proc.devRef .tc main_v0) = _
  after_results
  rfl

/-- Entry `(r, q)` of input 0's block at point `t` is the argument's entry at row `1024 (t % 16) + r`, column `512 (t / 16) + q`. -/
theorem b0_apply (c : Dev nD) (t : Fin cfg0.N) (r : Fin 1024) (q : Fin 512) (i : Fin 16384) (j : Fin 2048)
    (hi : i.val = 1024 * (t.val % 16) + r.val) (hj : j.val = 512 * (t.val / 16) + q.val) :
    b0 m c t (ix2 r q) = a0 m c (ix3 i 0 j) := by
  refine Eq.trans ?_ ((congrFun (V0_eq m c) (ix2 i j)).trans (squeeze_apply (a0 m c) i j))
  unfold b0 iblk
  rw [View.read_apply]
  show V m c main_v0 _ = V m c main_v0 _
  congr 1
  funext a
  apply Fin.ext
  have h := idx_facts t
  match a with
  | ⟨0, _⟩ => show win0_0.index t 0 * 1024 + 1 * r.val = i.val; rw [(h.1).1, hi]; omega
  | ⟨1, _⟩ => show win0_0.index t 1 * 512 + 1 * q.val = j.val; rw [(h.1).2, hj]; omega

/-- The squeezed array of argument 1 as the region finds it. -/
theorem V1_eq (c : Dev nD) :
    (V m c main_v1 : Vec Ideal S16384x2048 .f32) = shapeCast S16384x2048 (a1 m c) shapeCasts_S16384x1x2048_S16384x2048 := by
  show StableHlo.after hostOps0 (fun b => m (c, b)) (Proc.devRef .tc main_v1) = _
  after_results
  rfl

/-- Entry `(r, q)` of input 1's block at point `t` is the argument's entry at row `1024 (t % 16) + r`, column `512 (t / 16) + q`. -/
theorem b1_apply (c : Dev nD) (t : Fin cfg0.N) (r : Fin 1024) (q : Fin 512) (i : Fin 16384) (j : Fin 2048)
    (hi : i.val = 1024 * (t.val % 16) + r.val) (hj : j.val = 512 * (t.val / 16) + q.val) :
    b1 m c t (ix2 r q) = a1 m c (ix3 i 0 j) := by
  refine Eq.trans ?_ ((congrFun (V1_eq m c) (ix2 i j)).trans (squeeze_apply (a1 m c) i j))
  unfold b1 iblk
  rw [View.read_apply]
  show V m c main_v1 _ = V m c main_v1 _
  congr 1
  funext a
  apply Fin.ext
  have h := idx_facts t
  match a with
  | ⟨0, _⟩ => show win0_1.index t 0 * 1024 + 1 * r.val = i.val; rw [(h.2.1).1, hi]; omega
  | ⟨1, _⟩ => show win0_1.index t 1 * 512 + 1 * q.val = j.val; rw [(h.2.1).2, hj]; omega

/-- The squeezed array of argument 2 as the region finds it. -/
theorem V2_eq (c : Dev nD) :
    (V m c main_v2 : Vec Ideal S16384x2048 .f32) = shapeCast S16384x2048 (a2 m c) shapeCasts_S16384x1x2048_S16384x2048 := by
  show StableHlo.after hostOps0 (fun b => m (c, b)) (Proc.devRef .tc main_v2) = _
  after_results
  rfl

/-- Entry `(r, q)` of input 2's block at point `t` is the argument's entry at row `1024 (t % 16) + r`, column `512 (t / 16) + q`. -/
theorem b2_apply (c : Dev nD) (t : Fin cfg0.N) (r : Fin 1024) (q : Fin 512) (i : Fin 16384) (j : Fin 2048)
    (hi : i.val = 1024 * (t.val % 16) + r.val) (hj : j.val = 512 * (t.val / 16) + q.val) :
    b2 m c t (ix2 r q) = a2 m c (ix3 i 0 j) := by
  refine Eq.trans ?_ ((congrFun (V2_eq m c) (ix2 i j)).trans (squeeze_apply (a2 m c) i j))
  unfold b2 iblk
  rw [View.read_apply]
  show V m c main_v2 _ = V m c main_v2 _
  congr 1
  funext a
  apply Fin.ext
  have h := idx_facts t
  match a with
  | ⟨0, _⟩ => show win0_2.index t 0 * 1024 + 1 * r.val = i.val; rw [(h.2.2.1).1, hi]; omega
  | ⟨1, _⟩ => show win0_2.index t 1 * 512 + 1 * q.val = j.val; rw [(h.2.2.1).2, hj]; omega

/-- The squeezed array of argument 3 as the region finds it. -/
theorem V3_eq (c : Dev nD) :
    (V m c main_v3 : Vec Ideal S16384x2048 .f32) = shapeCast S16384x2048 (a3 m c) shapeCasts_S16384x1x2048_S16384x2048 := by
  show StableHlo.after hostOps0 (fun b => m (c, b)) (Proc.devRef .tc main_v3) = _
  after_results
  rfl

/-- Entry `(r, q)` of input 3's block at point `t` is the argument's entry at row `1024 (t % 16) + r`, column `512 (t / 16) + q`. -/
theorem b3_apply (c : Dev nD) (t : Fin cfg0.N) (r : Fin 1024) (q : Fin 512) (i : Fin 16384) (j : Fin 2048)
    (hi : i.val = 1024 * (t.val % 16) + r.val) (hj : j.val = 512 * (t.val / 16) + q.val) :
    b3 m c t (ix2 r q) = a3 m c (ix3 i 0 j) := by
  refine Eq.trans ?_ ((congrFun (V3_eq m c) (ix2 i j)).trans (squeeze_apply (a3 m c) i j))
  unfold b3 iblk
  rw [View.read_apply]
  show V m c main_v3 _ = V m c main_v3 _
  congr 1
  funext a
  apply Fin.ext
  have h := idx_facts t
  match a with
  | ⟨0, _⟩ => show win0_3.index t 0 * 1024 + 1 * r.val = i.val; rw [(h.2.2.2.1).1, hi]; omega
  | ⟨1, _⟩ => show win0_3.index t 1 * 512 + 1 * q.val = j.val; rw [(h.2.2.2.1).2, hj]; omega

/-- The column sums one step adds: at column `q` of the block at point `t`, the sum over row block `t % 16` at column
    `512 (t / 16) + q` of the divergence of the arguments' entries. -/
theorem step_sum (c : Dev nD) (t : Fin cfg0.N) (q : Fin 512) :
    ∑ r : Fin 1024, klAt (b0 m c t) (b1 m c t) (b2 m c t) (b3 m c t) r q
      = blockSum (a0 m c) (a1 m c) (a2 m c) (a3 m c) (t.val % 16) (512 * (t.val / 16) + q.val) := by
  have hN : t.val < 64 := lt_of_lt_of_eq t.isLt (show cfg0.N = 64 from N_0)
  have hs : t.val % 16 < 16 := Nat.mod_lt _ (by decide)
  have hc : 512 * (t.val / 16) + q.val < 2048 := by have := q.isLt; omega
  unfold blockSum
  rw [dif_pos ⟨hs, hc⟩]
  refine Finset.sum_congr rfl fun r _ => ?_
  unfold klAt term
  rw [b0_apply m c t r q (rowOf ⟨t.val % 16, hs⟩ r) ⟨512 * (t.val / 16) + q.val, hc⟩ rfl rfl,
    b1_apply m c t r q (rowOf ⟨t.val % 16, hs⟩ r) ⟨512 * (t.val / 16) + q.val, hc⟩ rfl rfl,
    b2_apply m c t r q (rowOf ⟨t.val % 16, hs⟩ r) ⟨512 * (t.val / 16) + q.val, hc⟩ rfl rfl,
    b3_apply m c t r q (rowOf ⟨t.val % 16, hs⟩ r) ⟨512 * (t.val / 16) + q.val, hc⟩ rfl rfl]

end Cert.KernelIdeal.Blocks

end
-- ==== Proof.Acc.lean ====
/-
  The running row, point by point.

  The 64 grid points run column block by column block, 16 row blocks each: point `t` is row block `t % 16` of column block
  `t / 16`. The scratch row after point `t` is one step (`step`) applied to the row the point before left, except at the
  first point of a column block, where the step is applied to the zero row (`row_first`, `row_step`). So the row is a fold
  that restarts at every multiple of 16; a step adds, at each column, the block sum of the divergence (`step_apply`), and
  the fold is zero plus the block sums of the row blocks met so far in the current column block (`row_fold`). After the
  last row block that is the whole column's sum (`row_last`), and there the output's staging buffer holds the same row
  (`out_eq_row`).
-/
import proofs.«148023_j3616362463298_1_alg».proof.Proof.Gen.KernelIdeal.Frame
import proofs.«148023_j3616362463298_1_alg».proof.Proof.Pieces
import proofs.«148023_j3616362463298_1_alg».proof.Proof.Blocks
import Idealize.ShloMosaic.Lib.Pipeline.Value

noncomputable section

namespace Cert.KernelIdeal.Acc

open Idealize.ShloMosaic Idealize.ShloMosaic.TcCoe Idealize.ShloMosaic.ValueIdx Idealize.SL.Sem
open Cert.KernelIdeal Cert.KernelIdeal.Gen Cert.KlSum Cert.KernelIdeal.Payload Cert.KernelIdeal.Blocks

variable (m : (ℓ : Loc nD τ sig) → Buf (Elt Ideal) ℓ)

/-- The scratch row after point `n`. -/
abbrev row (c : Dev nD) (n : ℕ) (h : n < cfg0.N) : Vec Ideal S1x512 .f32 := (outsAt0 m c n h).2

/-- One step on the input blocks of point `t`, applied to the row `acc`. -/
abbrev step (c : Dev nD) (t : Fin cfg0.N) (acc : Vec Ideal S1x512 .f32) : Vec Ideal S1x512 .f32 :=
  k0_pay2 (F := Ideal) (b0 m c t) (b1 m c t) (b2 m c t) (b3 m c t) acc

/-- At the first row block of a column block the step starts from the zero row. -/
theorem row_first (c : Dev nD) (t : Fin cfg0.N) (h0 : t.val % 16 = 0) :
    row m c t.val t.isLt = step m c t (k0_pay1 (F := Ideal)) := by
  have h1 : ¬t.val % 16 = 15 := by omega
  show (outsAt0 m c t.val t.isLt).2 = _
  rw [outsAt0_A m c t h0 h1]
  dsimp only
  exact Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every other row block it starts from the row the point before left. -/
theorem row_step (c : Dev nD) (t : Fin cfg0.N) (h0 : ¬t.val % 16 = 0) :
    row m c t.val t.isLt = step m c t (row m c (t.val - 1) (Nat.lt_of_le_of_lt (Nat.sub_le _ _) t.isLt)) := by
  show (outsAt0 m c t.val t.isLt).2 = _
  by_cases h1 : t.val % 16 = 15
  · rw [outsAt0_C m c t h0 h1]
    dsimp only
    exact Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scratch_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last row block of a column block the output's staging buffer holds the scratch row. -/
theorem out_eq_row (c : Dev nD) (t : Fin cfg0.N) (h1 : t.val % 16 = 15) :
    (outsAt0 m c t.val t.isLt).1 = row m c t.val t.isLt := by
  have h0 : ¬t.val % 16 = 0 := by omega
  show (outsAt0 m c t.val t.isLt).1 = (outsAt0 m c t.val t.isLt).2
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-- What the step at point `n` adds at column `i` of the row: the block sum of row block `n % 16` at column
    `512 (n / 16) + i` of the arguments. -/
def addend (c : Dev nD) (n : ℕ) (i : S1x512.Idx) : EReal :=
  blockSum (a0 m c) (a1 m c) (a2 m c) (a3 m c) (n % 16) (512 * (n / 16) + (i 1).val)

/-- A step adds its point's addend. -/
theorem step_apply (c : Dev nD) (t : Fin cfg0.N) (acc : Vec Ideal S1x512 .f32) (i : S1x512.Idx) :
    step m c t acc i = acc i + addend m c t.val i := by
  obtain ⟨u, q, rfl⟩ : ∃ (u : Fin 1) (q : Fin 512), i = ix2 u q := ⟨i 0, i 1, eq_ix2 i⟩
  show k0_pay2 (F := Ideal) (b0 m c t) (b1 m c t) (b2 m c t) (b3 m c t) acc (ix2 u q) = _
  rw [pay2_apply, step_sum]
  rfl

/-- THE FOLD: the row after point `t` is zero plus the addends of the points of its column block up to `t`. -/
theorem row_fold (c : Dev nD) (t : Fin cfg0.N) (i : S1x512.Idx) :
    row m c t.val t.isLt i
      = zeroWord + ∑ s ∈ Finset.range (t.val % 16 + 1), addend m c (16 * (t.val / 16) + s) i := by
  have h' : 16 * (t.val / 16) + t.val % 16 < cfg0.N := by rw [Nat.div_add_mod]; exact t.isLt
  have e := Pipeline.eq_accAt_of_mod (N := cfg0.N) (α := Vec Ideal S1x512 .f32) (fun n h => row m c n h) 16
    (fun n h => step m c ⟨n, h⟩ (k0_pay1 (F := Ideal)))
    (fun n h acc => step m c ⟨n, h⟩ acc)
    (fun n h e => row_first m c ⟨n, h⟩ e)
    (fun n h e => row_step m c ⟨n + 1, h⟩ e)
    (by decide) t.val t.isLt h'
  refine (congrFun e i).trans ?_
  exact Pipeline.accAt_add_apply (ι := S1x512.Idx) (β := EReal) _ _ (fun _ => zeroWord) (fun n i => addend m c n i)
    (16 * (t.val / 16)) 15
    (fun h i => by rw [step_apply, pay1_apply])
    (fun n h acc i _ _ => step_apply m c ⟨n, h⟩ acc i)
    (t.val % 16) (by omega) h' i

/-- After the last row block of column block `t / 16` the row is the arguments' whole column sums. -/
theorem row_last (c : Dev nD) (t : Fin cfg0.N) (h1 : t.val % 16 = 15) (u : Fin 1) (q : Fin 512) (j : Fin 2048)
    (hj : j.val = 512 * (t.val / 16) + q.val) :
    row m c t.val t.isLt (ix2 u q) = total (a0 m c) (a1 m c) (a2 m c) (a3 m c) (ix1 j) := by
  rw [row_fold, ← total_eq_blocks, h1]
  refine congrArg (zeroWord + ·) (Finset.sum_congr rfl fun s hs => ?_)
  have hs' : s < 16 := Finset.mem_range.mp hs
  have e1 : (16 * (t.val / 16) + s) % 16 = s := by omega
  have e2 : (16 * (t.val / 16) + s) / 16 = t.val / 16 := by omega
  show blockSum _ _ _ _ ((16 * (t.val / 16) + s) % 16) (512 * ((16 * (t.val / 16) + s) / 16) + q.val) = blockSum _ _ _ _ s j.val
  rw [e1, e2, hj]

end Cert.KernelIdeal.Acc

end
-- ==== Proof.Final.lean ====
/-
  From the running row to the program's result.

  The output window's block at point `t` is columns `512 (t / 16) … 512 (t / 16) + 511` of the one-row array
  `[1, 2048]`, and it is written back only after the last row block of a column block (`t % 16 = 15`). What is written
  back there is the scratch row, which by then is the arguments' column sums (`flushed_eq`). The four write-backs, one
  per column block, cover the array (`cover`), so it ends as the row of all 2048 column sums (`final`); the reshape to
  `[2048]` after the region drops the unit axis (`result_eq`). `run` restates the kernel's run with that result named.
-/
import proofs.«148023_j3616362463298_1_alg».proof.Proof.Gen.KernelIdeal.Frame
import proofs.«148023_j3616362463298_1_alg».proof.Proof.Acc
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KlSum Cert.KernelIdeal.Blocks Cert.KernelIdeal.Acc

variable (m : (ℓ : Loc nD τ sig) → Buf (Elt Ideal) ℓ) (ρ : Dev nD → PrngReg)

/-- The program's result on core `c`: the column sums of the divergence of its argument arrays. -/
abbrev result (c : Dev nD) : Vec Ideal S2048 .f32 := total (a0 m c) (a1 m c) (a2 m c) (a3 m c)

/-- The same as the one-row array the kernel writes. -/
abbrev outArr (c : Dev nD) : Vec Ideal S1x2048 .f32 := fun i => result m c (ix1 (i 1))

/-- WHAT A WRITE-BACK WRITES: after the last row block of a column block, that column block of the result. -/
theorem flushed_eq (c : Dev nD) (t : Fin cfg0.N) (hf : (cfg0.win 4).flush t = true) :
    (dats m 0 c).flushed 4 t = ((cfg0.win 4).blk t).view.read (Elt Ideal) (outArr m c) := by
  have h1 : t.val % 16 = 15 := (flush0_4 t).mp hf
  have hN : t.val < 64 := lt_of_lt_of_eq t.isLt (show cfg0.N = 64 from N_0)
  show (cfg0.win 4).cut (grid0.coords t) ((dats m 0 c).after 4 t) = _
  rw [after0_4, out_eq_row m c t h1]
  funext y
  have hy : (y 1).val < 512 := (y 1).isLt
  show row m c t.val t.isLt y = result m c (ix1 ((((cfg0.win 4).blk t).view.emb y) 1))
  rw [eq_ix2 y]
  refine (row_last m c t h1 (y 0) (y 1) ⟨512 * (t.val / 16) + (y 1).val, by omega⟩ rfl).trans ?_
  refine congrArg (result m c) (congrArg ix1 (Fin.ext ?_))
  show 512 * (t.val / 16) + (y 1).val = win0_4.index t 1 * 512 + 1 * (y 1).val
  rw [(idx_facts t).2.2.2.2.2]
  omega

/-- An index of the output array is in point `t`'s block iff each coordinate is in the block's range on its axis. -/
theorem mem_blk (t : Fin cfg0.N) (i : S1x2048.Idx) :
    i ∈ ((cfg0.win 4).blk t).view.set
      ↔ ∀ a : Fin 2, win0_4.index t a * S1x512.size a ≤ (i a).val ∧ (i a).val < win0_4.index t a * S1x512.size a + S1x512.size a := by
  show i ∈ ((View.whole main_v4).slice (win0_4.rect t)).set ↔ _
  rw [View.set_slice_whole, Rect.mem_set_unit]
  exact Iff.rfl

/-- Every column of the output array is in the block some write-back writes: column `j` in column block `j / 512`'s. -/
theorem cover (i : S1x2048.Idx) :
    ∃ t : Fin cfg0.N, (cfg0.win 4).flush t = true ∧ i ∈ ((cfg0.win 4).blk t).view.set := by
  have hi0 : (i 0).val < 1 := (i 0).isLt
  have hi1 : (i 1).val < 2048 := (i 1).isLt
  have hN : cfg0.N = 64 := N_0
  have ht : 16 * ((i 1).val / 512) + 15 < cfg0.N := by omega
  refine ⟨⟨16 * ((i 1).val / 512) + 15, ht⟩, (flush0_4 _).mpr (by show (16 * ((i 1).val / 512) + 15) % 16 = 15; omega), ?_⟩
  rw [mem_blk]
  have h := (idx_facts ⟨16 * ((i 1).val / 512) + 15, ht⟩).2.2.2.2
  intro a
  match a with
  | ⟨0, _⟩ =>
    show win0_4.index ⟨16 * ((i 1).val / 512) + 15, ht⟩ 0 * 1 ≤ (i 0).val ∧ (i 0).val < win0_4.index ⟨16 * ((i 1).val / 512) + 15, ht⟩ 0 * 1 + 1
    rw [h.1]; omega
  | ⟨1, _⟩ =>
    show win0_4.index ⟨16 * ((i 1).val / 512) + 15, ht⟩ 1 * 512 ≤ (i 1).val ∧ (i 1).val < win0_4.index ⟨16 * ((i 1).val / 512) + 15, ht⟩ 1 * 512 + 512
    rw [h.2]
    show (16 * ((i 1).val / 512) + 15) / 16 * 512 ≤ (i 1).val ∧ (i 1).val < (16 * ((i 1).val / 512) + 15) / 16 * 512 + 512
    omega

/-- THE OUTPUT ARRAY after the run: the row of all the column sums. -/
theorem final (c : Dev nD) : (dats m 0 c).arrAt 4 cfg0.N = outArr m c :=
  (dats m 0 c).arrAt_eq_of_cover 4 (outArr m c) (flushed_eq m c) cover

/-- The reshape after the region drops the unit axis: the program's result buffer ends as `result`. -/
theorem result_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays spec0 c (V0 m c) (fun w => (dats m 0 c).arrAt w cfg0.N) (Proc.devRef .tc main_v4) = outArr m c :=
    (Pipeline.withArrays_arr spec0 launch0.win.arr_inj c _ _ 4).trans (final m c)
  funext i
  obtain ⟨j, rfl⟩ : ∃ j : Fin 2048, i = ix1 j := ⟨i 0, eq_ix1 i⟩
  show shapeCast S2048 (Pipeline.withArrays spec0 c (V0 m c) (fun w => (dats m 0 c).arrAt w cfg0.N) (Proc.devRef .tc main_v4))
    shapeCasts_S1x2048_S2048 (ix1 j) = _
  rw [e]
  exact shapeCast_1a_a_apply (outArr m c) shapeCasts_S1x2048_S2048 j

/-- THE KERNEL'S RUN, READ: every weakly fair execution terminates with the result buffer at the column sums of the
    divergence of the argument arrays, and the arguments unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.Ref.lean ====
/-
  The reference computes the specification's result.

  The reference squeezes the unit axis out of each argument, computes the divergence entry by entry with the same
  operations in the same order and the same two literal words, and sums each column over all 16384 rows from the zero
  word. Read one operation at a time at an index, its result at column `j` is `0 + ∑ i, kl (i, j)`: the squeeze reads entry
  `(i, j)` at `(i, 0, j)` of the argument (`squeeze_idx`), and the rest is the definition of the divergence.
-/
import proofs.«148023_j3616362463298_1_alg».proof.Proof.Gen.ReferenceIdeal.Read
import proofs.«148023_j3616362463298_1_alg».proof.Proof.Spec

noncomputable section

namespace Cert.ReferenceIdeal.RefValue

open Idealize.ShloMosaic Idealize.ShloMosaic.TcCoe Idealize.ShloMosaic.ValueIdx
open Cert.ReferenceIdeal Cert.ReferenceIdeal.Read Cert.KlSum

/-- Row `k`, column `j` of squeezed argument 0 is entry `(k, 0, j)` of the argument. -/
theorem squeeze_idx0 (j : Fin 2048) (k : Fin 16384) : idx_main_v0 (idx_main_v16 (ix1 j) k) = ix3 k 0 j :=
  funext fun a => Fin.ext (by
    have hj := j.isLt
    match a with
    | ⟨0, _⟩ => show (k.val * 2048 + j.val) / 2048 = k.val; omega
    | ⟨1, _⟩ => rfl
    | ⟨2, _⟩ => show (k.val * 2048 + j.val) % 2048 = j.val; omega)

/-- Row `k`, column `j` of squeezed argument 1 is entry `(k, 0, j)` of the argument. -/
theorem squeeze_idx1 (j : Fin 2048) (k : Fin 16384) : idx_main_v1 (idx_main_v16 (ix1 j) k) = ix3 k 0 j :=
  funext fun a => Fin.ext (by
    have hj := j.isLt
    match a with
    | ⟨0, _⟩ => show (k.val * 2048 + j.val) / 2048 = k.val; omega
    | ⟨1, _⟩ => rfl
    | ⟨2, _⟩ => show (k.val * 2048 + j.val) % 2048 = j.val; omega)

/-- Row `k`, column `j` of squeezed argument 2 is entry `(k, 0, j)` of the argument. -/
theorem squeeze_idx2 (j : Fin 2048) (k : Fin 16384) : idx_main_v2 (idx_main_v16 (ix1 j) k) = ix3 k 0 j :=
  funext fun a => Fin.ext (by
    have hj := j.isLt
    match a with
    | ⟨0, _⟩ => show (k.val * 2048 + j.val) / 2048 = k.val; omega
    | ⟨1, _⟩ => rfl
    | ⟨2, _⟩ => show (k.val * 2048 + j.val) % 2048 = j.val; omega)

/-- Row `k`, column `j` of squeezed argument 3 is entry `(k, 0, j)` of the argument. -/
theorem squeeze_idx3 (j : Fin 2048) (k : Fin 16384) : idx_main_v3 (idx_main_v16 (ix1 j) k) = ix3 k 0 j :=
  funext fun a => Fin.ext (by
    have hj := j.isLt
    match a with
    | ⟨0, _⟩ => show (k.val * 2048 + j.val) / 2048 = k.val; omega
    | ⟨1, _⟩ => rfl
    | ⟨2, _⟩ => show (k.val * 2048 + j.val) % 2048 = j.val; omega)

/-- The reference's result is the specification's: at each column zero plus the sum of the divergences down it. -/
theorem ref_eq_total (x0 x1 x2 x3 : (⟨S16384x1x2048, .f32⟩ : BufTy).Contents (Elt Ideal)) :
    val_main_v16 (F := Ideal) x0 x1 x2 x3 = total x0 x1 x2 x3 := by
  funext i
  obtain ⟨j, rfl⟩ : ∃ j : Fin 2048, i = ix1 j := ⟨i 0, eq_ix1 i⟩
  rw [val_main_v16_apply]
  unfold total
  refine congrArg₂ (· + ·) rfl (Finset.sum_congr rfl fun k _ => ?_)
  rw [val_main_v15_apply, val_main_v14_apply, val_main_cst_0_apply, val_main_v13_apply, val_main_v11_apply,
    val_main_v12_apply, val_main_v9_apply, val_main_v10_apply, val_main_cst_apply, val_main_v5_apply, val_main_v8_apply,
    val_main_v4_apply, val_main_v7_apply, val_main_v6_apply, val_main_v0_apply, val_main_v1_apply, val_main_v2_apply,
    val_main_v3_apply, squeeze_idx0, squeeze_idx1, squeeze_idx2, squeeze_idx3]
  rfl

end Cert.ReferenceIdeal.RefValue

end
-- ==== Proof.lean ====
/-
  The sum over the batch of the closed-form divergence between two families of normal laws.

  Arguments `mean1, std1, mean2, std2 : [16384, 1, 2048]`. With `ρ = std1 / std2` and `δ = (mean1 - mean2) / std2`, entry by
  entry, the divergence is `kl = 1/2 · (((ρ·ρ + δ·δ) - 1) - log (ρ·ρ))`, and the result is, at each of the 2048 columns, zero
  plus the sum of `kl` over the 16384 rows.

  The reference computes exactly that, one host operation at a time (Proof/Ref.lean). The kernel walks a `4 × 16` grid:
  for each of 4 column blocks of 512 columns it runs through the 16 row blocks of 1024 rows, keeps a running `[1, 512]` row
  in a scratch buffer — reset to zeros before the first row block, increased at every row block by that block's column sums
  of `kl` — and copies the row out after the last row block. So what it writes for a column is
  `(((0 + (0 + B₀)) + B₁) + …) + B₁₅`, with `Bₛ` the sum of `kl` over the rows of row block `s`; over the extended reals, where
  addition is commutative and associative, that is the same sum over all rows (Proof/Spec.lean `total_eq_blocks`; no
  finiteness of the inputs is needed, and none is used). The kernel's side: each case's step as a value (Proof/Pieces.lean),
  the step's arithmetic at an index (Proof/Payload.lean), the blocks read back to the arguments (Proof/Blocks.lean), the row
  as a fold over the points (Proof/Acc.lean), and the output array and the final reshape (Proof/Final.lean).

  The three frames are the generated ones (the reference's from its generated run); the idealization rewrote nothing, so
  `preserves` is trivial.
-/
import proofs.«148023_j3616362463298_1_alg».proof.Defs
import proofs.«148023_j3616362463298_1_alg».proof.Proof.Gen.Kernel
import proofs.«148023_j3616362463298_1_alg».proof.Proof.Gen.Kernel.Skeleton
import proofs.«148023_j3616362463298_1_alg».proof.Proof.Gen.Kernel.Launch
import proofs.«148023_j3616362463298_1_alg».proof.Proof.Gen.Kernel.Points
import proofs.«148023_j3616362463298_1_alg».proof.Proof.Gen.Kernel.Frame
import proofs.«148023_j3616362463298_1_alg».proof.Proof.Gen.KernelIdeal
import proofs.«148023_j3616362463298_1_alg».proof.Proof.Gen.KernelIdeal.Skeleton
import proofs.«148023_j3616362463298_1_alg».proof.Proof.Gen.KernelIdeal.Launch
import proofs.«148023_j3616362463298_1_alg».proof.Proof.Gen.KernelIdeal.Points
import proofs.«148023_j3616362463298_1_alg».proof.Proof.Gen.KernelIdeal.Frame
import proofs.«148023_j3616362463298_1_alg».proof.Proof.Gen.ReferenceIdeal
import proofs.«148023_j3616362463298_1_alg».proof.Proof.Gen.ReferenceIdeal.Run
import proofs.«148023_j3616362463298_1_alg».proof.Proof.Gen.ReferenceIdeal.Read
import proofs.«148023_j3616362463298_1_alg».proof.Proof.Gen.Pre_finite_inputs
import proofs.«148023_j3616362463298_1_alg».proof.Proof.Final
import proofs.«148023_j3616362463298_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the column sums of the divergence of the (agreeing) argument arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq_total,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
